-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096x1 : Shape := ⟨3, ![16, 4096, 1]⟩
abbrev S16x1x4096 : Shape := ⟨3, ![16, 1, 4096]⟩
abbrev S1x4096x3 : Shape := ⟨3, ![1, 4096, 3]⟩
abbrev S1x512x3 : Shape := ⟨3, ![1, 512, 3]⟩
abbrev S1x4096x1 : Shape := ⟨3, ![1, 4096, 1]⟩
abbrev S1x1x512 : Shape := ⟨3, ![1, 1, 512]⟩
abbrev S1x4096 : Shape := ⟨2, ![1, 4096]⟩
abbrev S1x512 : Shape := ⟨2, ![1, 512]⟩
abbrev S1x512x1 : Shape := ⟨3, ![1, 512, 1]⟩
abbrev S1x4096x512 : Shape := ⟨3, ![1, 4096, 512]⟩
abbrev S16x4096 : Shape := ⟨2, ![16, 4096]⟩
abbrev S_ : Shape := ⟨0, ![]⟩
abbrev S16 : Shape := ⟨1, ![16]⟩

abbrev nBuf : Space → Nat
  | .hbm => 17
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x1, .f32⟩
  | .hbm, ⟨3, _⟩ => ⟨S16x1x4096, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .local _ .vmem, ⟨0, _⟩ => ⟨S1x4096x3, .f32⟩
  | .local _ .vmem, ⟨1, _⟩ => ⟨S1x4096x3, .f32⟩
  | .local _ .vmem, ⟨2, _⟩ => ⟨S1x512x3, .f32⟩
  | .local _ .vmem, ⟨3, _⟩ => ⟨S1x512x3, .f32⟩
  | .local _ .vmem, ⟨4, _⟩ => ⟨S1x4096x1, .f32⟩
  | .local _ .vmem, ⟨5, _⟩ => ⟨S1x4096x1, .f32⟩
  | .local _ .vmem, ⟨6, _⟩ => ⟨S1x1x512, .f32⟩
  | .local _ .vmem, ⟨7, _⟩ => ⟨S1x1x512, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  inb_S1x512x3_S1x512x3_0_0_0 : ∀ a, (![0, 0, 0] : Fin 3 → Nat) a + S1x512x3.size a ≤ S1x512x3.size a
  h_S1x512x3 : 0 < S1x512x3.numel
  reduces_S1x4096x3_S1x4096 : S1x4096x3.Reduces [2] S1x4096
  shapeCasts_S1x4096_S1x4096x1 : S1x4096.ShapeCasts S1x4096x1
  reduces_S1x512x3_S1x512 : S1x512x3.Reduces [2] S1x512
  shapeCasts_S1x512_S1x512x1 : S1x512.ShapeCasts S1x512x1
  transposes_S1x512x1_p0_2_1_S1x1x512 : S1x512x1.Transposes [0, 2, 1] S1x1x512
  bitsLt_bf16_f32 : FTy.bits .bf16 < FTy.bits .f32
  broadcasts_S1x4096x1_S1x4096x512 : S1x4096x1.Broadcasts S1x4096x512
  broadcasts_S1x1x512_S1x4096x512 : S1x1x512.Broadcasts S1x4096x512
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  reduces_S1x4096x512_S1x4096 : S1x4096x512.Reduces [2] S1x4096
  reduces_S1x4096x512_S1x512 : S1x4096x512.Reduces [1] S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S16x4096x1_S16x4096 : S16x4096x1.ShapeCasts S16x4096
  shapeCasts_S16x1x4096_S16x4096 : S16x1x4096.ShapeCasts S16x4096
  reducesTo_S16x4096_S16_d1 : S16x4096.ReducesTo [1] S16
  h_S_ : 0 < S_.numel
  bcast_S_S16 : S_.BroadcastsInDim S16 (![] : Fin 0 → Fin S16.rank)
  dot_S1x4096x3_S1x512x3_S1x4096x512_2_2_1_1_0_0_wf : DotDims.WF S1x4096x3 S1x512x3 S1x4096x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x4096x3.size a
  hwx0_0 : ∀ i : grid0.Coords, EltTy.bits .f32 = 32 ∨ (Rect.block (s := S16x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S16x4096x3.size a
  hwx0_1 : ∀ i : grid0.Coords, EltTy.bits .f32 = 32 ∨ (Rect.block (s := S16x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S16x4096x1.size a
  hwx0_2 : ∀ i : grid0.Coords, EltTy.bits .f32 = 32 ∨ (Rect.block (s := S16x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x4096.size a
  hwx0_3 : ∀ i : grid0.Coords, EltTy.bits .f32 = 32 ∨ (Rect.block (s := S16x1x4096) S1x1x512.size (cc0_transform_3 i) (hinb0_3 i)).WholeWords (EltTy.packing .f32)

variable [Facts₀]

def dot_S1x4096x3_S1x512x3_S1x4096x512_2_2_1_1_0_0 : DotDims S1x4096x3 S1x512x3 S1x4096x512 where
  lhsContracting := [2]
  rhsContracting := [2]
  lhsNonContracting := [1]
  rhsNonContracting := [1]
  lhsBatch := [0]
  rhsBatch := [0]
  wf := dot_S1x4096x3_S1x512x3_S1x4096x512_2_2_1_1_0_0_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S16 : Shape := ⟨1, ![16]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x1x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.ChamferSpec.lean ====
/-
  The mathematics of the Chamfer distance, free of any program.

  For two clouds of 4096 points of ℝ³ per batch entry, `X1` and `X2` (extended-real coordinates), the squared distance
  is taken in its expanded form  |u|² + |v|² − 2·⟨u, v⟩  — in exactly that grouping, so that no law of the extended
  reals beyond commutativity of a finite sum is ever needed. The row minimum of point `n` is the infimum over all `m` of
  that distance, the column minimum of point `m` the infimum over all `n`, and the result is the mean of the row minima
  plus the mean of the column minima.

  An infimum over 4096 indices taken 512 at a time: the running minimum after `j` tiles is the infimum over the indices
  below `512·j` (`partialMin`), and one more tile extends it by 512 indices (`partialMin_step`).
-/
import Idealize.ShloMosaic.Lib.ValueIdx
import Idealize.ShloMosaic.PureOps.Ideal.Laws

noncomputable section

namespace Cert.Chamfer

open Idealize.ShloMosaic Idealize.ShloMosaic.ValueIdx

/-- The shape of a point cloud: 16 batch entries of 4096 points of 3 coordinates. -/
abbrev Cloud : Shape := ⟨3, ![16, 4096, 3]⟩
/-- The shape of the minima: one per batch entry and point. -/
abbrev Mins : Shape := ⟨2, ![16, 4096]⟩

/-- The factor two of the cross term, as the word both programs carry (never evaluated). -/
abbrev two : EReal := Ideal.ofBits .f32 0x40000000#32

/-- |u|² + |v|² − 2·⟨u, v⟩ for two points of three coordinates. -/
def sqd (u v : Fin 3 → EReal) : EReal := (∑ d, u d * u d + ∑ d, v d * v d) - two * ∑ d, u d * v d

/-- The expanded squared distance between point `n` of the first cloud and point `m` of the second, in batch entry `b`. -/
def dist (X1 X2 : Cloud.Idx → EReal) (b : Fin 16) (n m : Fin 4096) : EReal :=
  sqd (fun d => X1 (ix3 b n d)) (fun d => X2 (ix3 b m d))

/-- The distance from each point of the first cloud to the second cloud. -/
def rowMin (X1 X2 : Cloud.Idx → EReal) : Mins.Idx → EReal := fun i => ⨅ m : Fin 4096, dist X1 X2 (i 0) (i 1) m
/-- The distance from each point of the second cloud to the first cloud. -/
def colMin (X1 X2 : Cloud.Idx → EReal) : Mins.Idx → EReal := fun i => ⨅ n : Fin 4096, dist X1 X2 (i 0) n (i 1)

/-- The infinity word is the top of the extended reals. -/
theorem ofBits_inf : Ideal.ofBits .f32 0x7F800000#32 = (⊤ : EReal) := by simp [Ideal.ofBits, Ideal.ieee]

/-- A minimum folded from the top over all of `Fin n` is the infimum: both are characterised by their lower bounds. -/
theorem fold_min_top {n : Nat} (f : Fin n → EReal) :
    (Finset.univ : Finset (Fin n)).fold min (⊤ : EReal) f = ⨅ k, f k := by
  refine eq_of_forall_le_iff fun c => ?_
  rw [Finset.le_fold_min, le_iInf_iff]
  simp

/-- The infimum of `f` over the indices below `k`. -/
def partialMin (f : Fin 4096 → EReal) (k : ℕ) : EReal := ⨅ m : Fin 4096, ⨅ _ : m.val < k, f m

theorem le_partialMin_iff (f : Fin 4096 → EReal) (k : ℕ) (c : EReal) :
    c ≤ partialMin f k ↔ ∀ m : Fin 4096, m.val < k → c ≤ f m := by
  unfold partialMin
  simp only [le_iInf_iff]

/-- Below zero there is no index: the empty infimum is the top. -/
theorem partialMin_zero (f : Fin 4096 → EReal) : partialMin f 0 = ⊤ := by
  refine eq_of_forall_le_iff fun c => ?_
  rw [le_partialMin_iff]
  simp

/-- Below 4096 lies every index. -/
theorem partialMin_full (f : Fin 4096 → EReal) : partialMin f 4096 = ⨅ m, f m := by
  refine eq_of_forall_le_iff fun c => ?_
  rw [le_partialMin_iff, le_iInf_iff]
  exact ⟨fun h m => h m m.isLt, fun h m _ => h m⟩

/-- One more tile of 512 indices: the running minimum, met with the tile's own infimum, is the running minimum one tile on. -/
theorem partialMin_step (f : Fin 4096 → EReal) (j : ℕ) (hj : 512 * (j + 1) ≤ 4096) (g : Fin 512 → EReal)
    (hg : ∀ q : Fin 512, g q = f ⟨512 * j + q.val, by have := q.isLt; omega⟩) :
    min (partialMin f (512 * j)) (⨅ q, g q) = partialMin f (512 * (j + 1)) := by
  refine eq_of_forall_le_iff fun c => ?_
  rw [le_min_iff, le_partialMin_iff, le_partialMin_iff, le_iInf_iff]
  constructor
  · rintro ⟨h1, h2⟩ m hm
    by_cases hlt : m.val < 512 * j
    · exact h1 m hlt
    · have hq : m.val - 512 * j < 512 := by omega
      have := h2 ⟨m.val - 512 * j, hq⟩
      rw [hg] at this
      have e : (⟨512 * j + (m.val - 512 * j), by omega⟩ : Fin 4096) = m := Fin.ext (by simp only; omega)
      rwa [e] at this
  · intro h
    refine ⟨fun m hm => h m (by omega), fun q => ?_⟩
    rw [hg]
    exact h _ (by have := q.isLt; simp only; omega)

/-- The first tile, taken from the top. -/
theorem partialMin_first (f : Fin 4096 → EReal) (g : Fin 512 → EReal)
    (hg : ∀ q : Fin 512, g q = f ⟨512 * 0 + q.val, by have := q.isLt; omega⟩) :
    min (⊤ : EReal) (⨅ q, g q) = partialMin f (512 * (0 + 1)) := by
  rw [← partialMin_zero f, show (0 : ℕ) = 512 * 0 from rfl]
  exact partialMin_step f 0 (by omega) g hg

/-- What both programs do with the two arrays of minima: each is summed along its points from zero and divided by the
    point count 4096, and the two means are added. Kept closed: the two programs apply literally this term. -/
def meanSum (hr : Mins.ReducesTo [1] (⟨1, ![16]⟩ : Shape)) (h0 : 0 < (⟨0, ![]⟩ : Shape).numel)
    (hb : (⟨0, ![]⟩ : Shape).BroadcastsInDim (⟨1, ![16]⟩ : Shape) (![] : Fin 0 → Fin 1))
    (R C : FVec Ideal Mins .f32) : FVec Ideal (⟨1, ![16]⟩ : Shape) .f32 :=
  addf (F := Ideal)
    (Host.divf (F := Ideal)
      (Host.reduceAdd (F := Ideal) R (constant (F := Ideal) (⟨0, ![]⟩ : Shape) .f32 0x00000000#32) hr h0)
      (broadcastInDim (⟨1, ![16]⟩ : Shape) ![] hb (constant (F := Ideal) (⟨0, ![]⟩ : Shape) .f32 0x45800000#32)))
    (Host.divf (F := Ideal)
      (Host.reduceAdd (F := Ideal) C (constant (F := Ideal) (⟨0, ![]⟩ : Shape) .f32 0x00000000#32) hr h0)
      (broadcastInDim (⟨1, ![16]⟩ : Shape) ![] hb (constant (F := Ideal) (⟨0, ![]⟩ : Shape) .f32 0x45800000#32)))

end Cert.Chamfer

end
-- ==== Proof.RefMins.lean ====
/-
  The reference, read: its array of row minima is `Chamfer.rowMin`, its array of column minima `Chamfer.colMin`, and its
  result the mean of the one plus the mean of the other.

  The reference materialises the whole 16 × 4096 × 4096 array of expanded squared distances
  |x1[b,n]|² + |x2[b,m]|² − 2·⟨x1[b,n], x2[b,m]⟩  (the two squared norms each a sum over the three coordinates from
  zero, broadcast along the other cloud's axis; the cross term a batched contraction over the coordinate axis), and takes
  a minimum from +∞ along the last axis, and one along the middle axis. A minimum from the top over a whole axis is the
  infimum over that axis (`Chamfer.fold_min_top`).
-/
import proofs.«169271_j50646254354947_1_alg».proof.Proof.Gen.ReferenceIdeal.Run
import proofs.«169271_j50646254354947_1_alg».proof.Proof.Gen.ReferenceIdeal.Read
import proofs.«169271_j50646254354947_1_alg».proof.Proof.ChamferSpec

noncomputable section

namespace Cert.ReferenceIdeal.RefValue

open Cert.ReferenceIdeal Cert.ReferenceIdeal.Gen Cert.ReferenceIdeal.Read
open Idealize.ShloMosaic Idealize.ShloMosaic.ValueIdx Cert.Chamfer

/-- The distance array at (b, n, m) is the expanded squared distance of point `n` of the first cloud and point `m` of
    the second: each squared norm is zero plus the three squares, the cross term the three products, all at batch `b`. -/
theorem dist_at (x0 x1 : (⟨S16x4096x3, .f32⟩ : BufTy).Contents (Elt Ideal)) (b : Fin 16) (n m : Fin 4096) :
    val_main_v12 (F := Ideal) x0 x1 (ix3 b n m) = dist x0 x1 b n m := by
  have e1 : ∀ k : Fin 3, idx_main_v1 (idx_main_v2 (idx_main_v7 (ix3 b n m))) k = ix3 b n k := fun k =>
    funext fun a => by match a with | ⟨0, _⟩ => rfl | ⟨1, _⟩ => rfl | ⟨2, _⟩ => rfl
  have e2 : ∀ k : Fin 3, idx_main_v4 (idx_main_v5 (idx_main_v8 (ix3 b n m))) k = ix3 b m k := fun k =>
    funext fun a => by match a with | ⟨0, _⟩ => rfl | ⟨1, _⟩ => rfl | ⟨2, _⟩ => rfl
  have e3 : ∀ k : Fin 3, lidx_main_v6 (ix3 b n m) k = ix3 b n k := fun k =>
    funext fun a => by match a with | ⟨0, _⟩ => rfl | ⟨1, _⟩ => rfl | ⟨2, _⟩ => rfl
  have e4 : ∀ k : Fin 3, ridx_main_v6 (ix3 b n m) k = ix3 b m k := fun k =>
    funext fun a => by match a with | ⟨0, _⟩ => rfl | ⟨1, _⟩ => rfl | ⟨2, _⟩ => rfl
  rw [val_main_v12_apply, val_main_v9_apply, val_main_v7_apply, val_main_v2_apply, val_main_v1_apply,
    val_main_v8_apply, val_main_v5_apply, val_main_v4_apply, val_main_v11_apply, val_main_v10_apply, val_main_v6_apply]
  simp only [e1, e2, e3, e4, val_main_v0_apply, val_main_v3_apply, val_main_cst_apply, val_main_cst_0_apply,
    val_main_cst_1_apply, Ideal.subf_def, Ideal.addf_def, Ideal.mulf_def, Ideal.ofBits_def, Ideal.ofBits_zero_f32, zero_add]
  rfl

/-- The index over (b, n) with `k` inserted on the last axis is (b, n, k). -/
theorem lift_last (h : S16x4096x4096.Reduces [2] S16x4096) (b : Fin 16) (n : Fin 4096) (k : Fin 4096) :
    h.lift (ix2 b n) k = ix3 b n k :=
  funext fun a => Fin.ext (by match a with | ⟨0, _⟩ => rfl | ⟨1, _⟩ => rfl | ⟨2, _⟩ => rfl)

/-- The index over (b, m) with `k` inserted on the middle axis is (b, k, m). -/
theorem lift_mid (h : S16x4096x4096.Reduces [1] S16x4096) (b : Fin 16) (m : Fin 4096) (k : Fin 4096) :
    h.lift (ix2 b m) k = ix3 b k m :=
  funext fun a => Fin.ext (by match a with | ⟨0, _⟩ => rfl | ⟨1, _⟩ => rfl | ⟨2, _⟩ => rfl)

/-- The minimum along the last axis is the row minimum. -/
theorem rows_eq (x0 x1 : (⟨S16x4096x3, .f32⟩ : BufTy).Contents (Elt Ideal)) :
    val_main_v13 (F := Ideal) x0 x1 = rowMin x0 x1 := by
  funext i
  obtain ⟨b, n, rfl⟩ : ∃ (b : Fin 16) (n : Fin 4096), i = ix2 b n := ⟨i 0, i 1, eq_ix2 i⟩
  unfold val_main_v13
  rw [Host.reduce_eq_fold_single FloatOps.minimumf _ _ reducesTo_S16x4096x4096_S16x4096_d2 (by decide) h_S_]
  show Finset.fold min (Ideal.ofBits .f32 0x7F800000#32) _ _ = ⨅ m : Fin 4096, dist x0 x1 b n m
  rw [ofBits_inf, ← fold_min_top]
  refine congrArg (fun f => Finset.fold min (⊤ : EReal) f Finset.univ) (funext fun k => ?_)
  exact (congrArg (val_main_v12 (F := Ideal) x0 x1) (lift_last _ b n k)).trans (dist_at x0 x1 b n k)

/-- The minimum along the middle axis is the column minimum. -/
theorem cols_eq (x0 x1 : (⟨S16x4096x3, .f32⟩ : BufTy).Contents (Elt Ideal)) :
    val_main_v14 (F := Ideal) x0 x1 = colMin x0 x1 := by
  funext i
  obtain ⟨b, m, rfl⟩ : ∃ (b : Fin 16) (m : Fin 4096), i = ix2 b m := ⟨i 0, i 1, eq_ix2 i⟩
  unfold val_main_v14
  rw [Host.reduce_eq_fold_single FloatOps.minimumf _ _ reducesTo_S16x4096x4096_S16x4096_d1 (by decide) h_S_]
  show Finset.fold min (Ideal.ofBits .f32 0x7F800000#32) _ _ = ⨅ n : Fin 4096, dist x0 x1 b n m
  rw [ofBits_inf, ← fold_min_top]
  refine congrArg (fun f => Finset.fold min (⊤ : EReal) f Finset.univ) (funext fun k => ?_)
  exact (congrArg (val_main_v12 (F := Ideal) x0 x1) (lift_mid _ b m k)).trans (dist_at x0 x1 b k m)

/-- The reference's result: the two means of the two arrays of minima, added. -/
theorem result_eq (x0 x1 : (⟨S16x4096x3, .f32⟩ : BufTy).Contents (Elt Ideal)) :
    val_main_v21 (F := Ideal) x0 x1
      = meanSum reducesTo_S16x4096_S16_d1 h_S_ bcast_S_S16 (rowMin x0 x1) (colMin x0 x1) := by
  rw [← rows_eq, ← cols_eq]
  rfl

end Cert.ReferenceIdeal.RefValue

end
-- ==== Proof.KPieces.lean ====
/-
  What one run of the kernel body leaves in its two output blocks, as values of the blocks it was given.

  The body computes the tile of distances `D` from its two input blocks, and
    * in the block of column minima writes the minimum of `D` down each column;
    * in the block of row minima writes  min(old, minimum of `D` along each row),  where `old` is what the block held —
      at the first tile of a batch entry the body has just overwritten it with +∞, at a later tile it is what the tile
      before left there.
  Each block is written by whole-block stores, so what it ends holding is the last store's value, and the block read
  back between two stores is the first store's value.
-/
import proofs.«169271_j50646254354947_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- Every block is accessed from its origin. -/
theorem hz : (![0, 0, 0] : Fin 3 → Nat) = fun _ => 0 := funext fun a => by fin_cases a <;> rfl

/-- A later tile: the row minima become min(what was there, the tile's row minima). -/
theorem rows_later (c : Dev nD) (i : grid0.Coords) (a2 : Memref sig .tc .vmem S1x4096x3 .f32) (h2 : a2.IsWhole)
    (a3 : Memref sig .tc .vmem S1x512x3 .f32) (h3 : a3.IsWhole) (a4 : Memref sig .tc .vmem S1x4096x1 .f32) (h4 : a4.IsWhole)
    (a5 : Memref sig .tc .vmem S1x1x512 .f32) (h5 : a5.IsWhole) (hc : ¬cond0_0 i)
    (x0 : Vec F S1x4096x3 .f32) (x1 : Vec F S1x512x3 .f32) (xo : Vec F S1x4096x1 .f32) :
    out0_B_2 c i a2 h2 a3 h3 a4 h4 a5 h5 hc x0 x1 xo = k0_pay3 x0 x1 xo := by
  unfold out0_B_2
  rw [View.read_writes_eq_canon _ _ _ (cover0_B_2 c i a2 h2 a3 h3 a4 h4 a5 h5 hc x0 x1 xo)]
  unfold kernelRun0_B
  dsimp only
  sl_unfold_words
  rw [View.canon_unit_zero hz]
  simp only [View.readAt_eq_ld, h2.read_unread, h3.read_unread, h4.read_unread, View.ld_unit_zero (S := S1x4096x3) hz,
    View.ld_unit_zero (S := S1x512x3) hz, View.ld_unit_zero (S := S1x4096x1) hz]

/-- The first tile: the block is reset to +∞, read back, and met with the tile's row minima. -/
theorem rows_first (c : Dev nD) (i : grid0.Coords) (a2 : Memref sig .tc .vmem S1x4096x3 .f32) (h2 : a2.IsWhole)
    (a3 : Memref sig .tc .vmem S1x512x3 .f32) (h3 : a3.IsWhole) (a4 : Memref sig .tc .vmem S1x4096x1 .f32) (h4 : a4.IsWhole)
    (a5 : Memref sig .tc .vmem S1x1x512 .f32) (h5 : a5.IsWhole) (hc : cond0_0 i)
    (x0 : Vec F S1x4096x3 .f32) (x1 : Vec F S1x512x3 .f32) :
    out0_A_2 c i a2 h2 a3 h3 a4 h4 a5 h5 hc x0 x1 = k0_pay3 x0 x1 k0_pay2 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x4096x1) hz, View.readCov_unit_zero (S := S1x4096x1) _ hz]
  simp only [View.readAt_eq_ld, h2.read_unread, h3.read_unread, View.ld_unit_zero (S := S1x4096x3) hz,
    View.ld_unit_zero (S := S1x512x3) hz, View.ld_unit_zero (S := S1x4096x1) hz]

/-- The column minima of the tile, at the first tile of a batch entry … -/
theorem cols_first (c : Dev nD) (i : grid0.Coords) (a2 : Memref sig .tc .vmem S1x4096x3 .f32) (h2 : a2.IsWhole)
    (a3 : Memref sig .tc .vmem S1x512x3 .f32) (h3 : a3.IsWhole) (a4 : Memref sig .tc .vmem S1x4096x1 .f32) (h4 : a4.IsWhole)
    (a5 : Memref sig .tc .vmem S1x1x512 .f32) (h5 : a5.IsWhole) (hc : cond0_0 i)
    (x0 : Vec F S1x4096x3 .f32) (x1 : Vec F S1x512x3 .f32) :
    out0_A_3 c i a2 h2 a3 h3 a4 h4 a5 h5 hc x0 x1 = k0_pay4 x0 x1 := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S1x4096x3) hz,
    View.ld_unit_zero (S := S1x512x3) hz]

/-- … and at a later one: the same, whatever the row block held. -/
theorem cols_later (c : Dev nD) (i : grid0.Coords) (a2 : Memref sig .tc .vmem S1x4096x3 .f32) (h2 : a2.IsWhole)
    (a3 : Memref sig .tc .vmem S1x512x3 .f32) (h3 : a3.IsWhole) (a4 : Memref sig .tc .vmem S1x4096x1 .f32) (h4 : a4.IsWhole)
    (a5 : Memref sig .tc .vmem S1x1x512 .f32) (h5 : a5.IsWhole) (hc : ¬cond0_0 i)
    (x0 : Vec F S1x4096x3 .f32) (x1 : Vec F S1x512x3 .f32) (xo : Vec F S1x4096x1 .f32) :
    out0_B_3 c i a2 h2 a3 h3 a4 h4 a5 h5 hc x0 x1 xo = k0_pay4 x0 x1 := by
  unfold out0_B_3
  rw [View.read_writes_eq_canon _ _ _ (cover0_B_3 c i a2 h2 a3 h3 a4 h4 a5 h5 hc x0 x1 xo)]
  unfold kernelRun0_B
  dsimp only
  sl_unfold_words
  rw [View.canon_unit_zero hz]
  simp only [View.readAt_eq_ld, h2.read_unread, h3.read_unread, View.ld_unit_zero (S := S1x4096x3) hz,
    View.ld_unit_zero (S := S1x512x3) hz]

end Cert.KernelIdeal.KValue

end
-- ==== Proof.KDist.lean ====
/-
  The kernel body's arithmetic, read one entry at a time over the extended reals.

  From a block `x0` of 4096 points and a tile `x1` of 512 points the body forms the 4096 × 512 tile of expanded squared
  distances: entry (n, q) is  |x0[n]|² + |x1[q]|² − 2·⟨x0[n], x1[q]⟩  — the squared norms are sums over the three
  coordinates (the first laid down the rows, the second, transposed, along the columns), the cross term is the matrix
  product of the two blocks contracted over the coordinate axis (the narrowing of its operands is the identity on extended
  reals). The row block then receives  min(old[n], inf over q of entry (n, q)), the column block  inf over n of entry (n, q):
  a minimum folded from +∞ along a whole axis is the infimum over that axis.
-/
import proofs.«169271_j50646254354947_1_alg».proof.Proof.Gen.KernelIdeal.Skeleton
import proofs.«169271_j50646254354947_1_alg».proof.Proof.ChamferSpec
import Idealize.ShloMosaic.Lib.Pipeline.Value
import Idealize.ShloMosaic.Lib.ValueLayout

noncomputable section

namespace Cert.KernelIdeal.KValue

open Cert.KernelIdeal Cert.KernelIdeal.Gen
open Idealize.ShloMosaic Idealize.ShloMosaic.ValueIdx Cert.Chamfer

/-- A minimum reduction over one axis, from its accumulator's value: the fold of `min` over that axis's coordinates. -/
theorem minimum_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The squared norms -/

/-- The squared norm of point `n` of the block: the sum of its three squared coordinates. -/
theorem sumsq_block (v : FVec Ideal S1x4096x3 .f32) (h1 : S1x4096x3.Reduces [2] S1x4096) (hφ : FKind.Formats .f32)
    (hacc : (0x00000000#32 : BitVec 32) = FKind.add.neutral .f32 hφ) (n : Fin 4096) :
    multiReduction .add [2] S1x4096 (mulf v v) 0x00000000#32 h1 hφ hacc (ix2 (0 : Fin 1) n)
      = ∑ d : Fin 3, v (ix3 0 n d) * v (ix3 0 n d) := by
  refine (Ideal.multiReduction_add_single (mulf v v) 0x00000000#32 h1 hφ hacc (ix2 (0 : Fin 1) n)).trans ?_
  refine Finset.sum_congr rfl fun d _ => ?_
  have e : h1.lift (ix2 (0 : Fin 1) n) d = ix3 0 n d :=
    funext fun a => Fin.ext (by match a with | ⟨0, _⟩ => rfl | ⟨1, _⟩ => rfl | ⟨2, _⟩ => rfl)
  rw [e]; rfl

/-- The same for point `q` of the tile. -/
theorem sumsq_tile (w : FVec Ideal S1x512x3 .f32) (h1 : S1x512x3.Reduces [2] S1x512) (hφ : FKind.Formats .f32)
    (hacc : (0x00000000#32 : BitVec 32) = FKind.add.neutral .f32 hφ) (q : Fin 512) :
    multiReduction .add [2] S1x512 (mulf w w) 0x00000000#32 h1 hφ hacc (ix2 (0 : Fin 1) q)
      = ∑ d : Fin 3, w (ix3 0 q d) * w (ix3 0 q d) := by
  refine (Ideal.multiReduction_add_single (mulf w w) 0x00000000#32 h1 hφ hacc (ix2 (0 : Fin 1) q)).trans ?_
  refine Finset.sum_congr rfl fun d _ => ?_
  have e : h1.lift (ix2 (0 : Fin 1) q) d = ix3 0 q d :=
    funext fun a => Fin.ext (by match a with | ⟨0, _⟩ => rfl | ⟨1, _⟩ => rfl | ⟨2, _⟩ => rfl)
  rw [e]; rfl

/-- The block's squared norms as a column, spread along the tile's 512 columns: entry (n, q) is the norm of point `n`. -/
theorem rowNorm_at (v : FVec Ideal S1x4096x3 .f32) (h1 : S1x4096x3.Reduces [2] S1x4096) (hφ : FKind.Formats .f32)
    (hacc : (0x00000000#32 : BitVec 32) = FKind.add.neutral .f32 hφ) (h2 : S1x4096.ShapeCasts S1x4096x1)
    (h3 : S1x4096x1.Broadcasts S1x4096x512) (n : Fin 4096) (q : Fin 512) :
    broadcastTo S1x4096x512 (shapeCast S1x4096x1 (multiReduction .add [2] S1x4096 (mulf v v) 0x00000000#32 h1 hφ hacc) h2) h3
        (ix3 (0 : Fin 1) n q)
      = ∑ d : Fin 3, v (ix3 0 n d) * v (ix3 0 n d) := by
  refine (broadcastTo_apply _ h3 (ix3 (0 : Fin 1) n q) (ix3 (0 : Fin 1) n (0 : Fin 1)) (fun a => by
    match a with
    | ⟨0, _⟩ => rfl
    | ⟨1, _⟩ => rfl
    | ⟨2, _⟩ => rfl)).trans ?_
  refine (shapeCast_apply _ h2 (ix3 (0 : Fin 1) n (0 : Fin 1)) (ix2 (0 : Fin 1) n) (by
    rw [Shape.rowMajor_val_two, Shape.rowMajor_val_three]
    show (0 : ℕ) * 4096 + n.val = ((0 : ℕ) * 4096 + n.val) * 1 + 0
    omega)).trans ?_
  exact sumsq_block v h1 hφ hacc n

/-- The tile's squared norms, turned into a row and spread down the block's 4096 rows: entry (n, q) is the norm of point `q`. -/
theorem colNorm_at (w : FVec Ideal S1x512x3 .f32) (h1 : S1x512x3.Reduces [2] S1x512) (hφ : FKind.Formats .f32)
    (hacc : (0x00000000#32 : BitVec 32) = FKind.add.neutral .f32 hφ) (h2 : S1x512.ShapeCasts S1x512x1)
    (h4 : S1x512x1.Transposes [0, 2, 1] S1x1x512) (h5 : S1x1x512.Broadcasts S1x4096x512) (n : Fin 4096) (q : Fin 512) :
    broadcastTo S1x4096x512 (transpose S1x1x512 [0, 2, 1]
        (shapeCast S1x512x1 (multiReduction .add [2] S1x512 (mulf w w) 0x00000000#32 h1 hφ hacc) h2) h4) h5
        (ix3 (0 : Fin 1) n q)
      = ∑ d : Fin 3, w (ix3 0 q d) * w (ix3 0 q d) := by
  refine (broadcastTo_apply _ h5 (ix3 (0 : Fin 1) n q) (ix3 (0 : Fin 1) (0 : Fin 1) q) (fun a => by
    match a with
    | ⟨0, _⟩ => rfl
    | ⟨1, _⟩ => rfl
    | ⟨2, _⟩ => rfl)).trans ?_
  refine (transpose_ix3_021_apply _ h4 (0 : Fin 1) (0 : Fin 1) q).trans ?_
  refine (shapeCast_apply _ h2 (ix3 (0 : Fin 1) q (0 : Fin 1)) (ix2 (0 : Fin 1) q) (by
    rw [Shape.rowMajor_val_two, Shape.rowMajor_val_three]
    show (0 : ℕ) * 512 + q.val = ((0 : ℕ) * 512 + q.val) * 1 + 0
    omega)).trans ?_
  exact sumsq_tile w h1 hφ hacc q

/-! ## The cross term -/

theorem lhs_cross_0 (i : S1x4096x512.Idx) (k : dot_S1x4096x3_S1x512x3_S1x4096x512_2_2_1_1_0_0.contr.Idx) :
    (dot_S1x4096x3_S1x512x3_S1x4096x512_2_2_1_1_0_0.lhsIdx i k 0).val = (i 0).val := by
  unfold DotDims.lhsIdx
  rw [dif_pos (show (0 : Fin S1x4096x3.rank) ∈ dot_S1x4096x3_S1x512x3_S1x4096x512_2_2_1_1_0_0.lhsBatch by decide)]
  rfl
theorem lhs_cross_1 (i : S1x4096x512.Idx) (k : dot_S1x4096x3_S1x512x3_S1x4096x512_2_2_1_1_0_0.contr.Idx) :
    (dot_S1x4096x3_S1x512x3_S1x4096x512_2_2_1_1_0_0.lhsIdx i k 1).val = (i 1).val := by
  unfold DotDims.lhsIdx
  rw [dif_neg (show ¬(1 : Fin S1x4096x3.rank) ∈ dot_S1x4096x3_S1x512x3_S1x4096x512_2_2_1_1_0_0.lhsBatch by decide),
    dif_pos (show (1 : Fin S1x4096x3.rank) ∈ dot_S1x4096x3_S1x512x3_S1x4096x512_2_2_1_1_0_0.lhsNonContracting by decide)]
  rfl
theorem lhs_cross_2 (i : S1x4096x512.Idx) (k : dot_S1x4096x3_S1x512x3_S1x4096x512_2_2_1_1_0_0.contr.Idx) :
    (dot_S1x4096x3_S1x512x3_S1x4096x512_2_2_1_1_0_0.lhsIdx i k 2).val = (k ⟨0, by decide⟩).val :=
  dot_S1x4096x3_S1x512x3_S1x4096x512_2_2_1_1_0_0.lhsIdx_val_of_single rfl i k
theorem rhs_cross_0 (i : S1x4096x512.Idx) (k : dot_S1x4096x3_S1x512x3_S1x4096x512_2_2_1_1_0_0.contr.Idx) :
    (dot_S1x4096x3_S1x512x3_S1x4096x512_2_2_1_1_0_0.rhsIdx i k 0).val = (i 0).val := by
  unfold DotDims.rhsIdx
  rw [dif_pos (show (0 : Fin S1x512x3.rank) ∈ dot_S1x4096x3_S1x512x3_S1x4096x512_2_2_1_1_0_0.rhsBatch by decide)]
  rfl
theorem rhs_cross_1 (i : S1x4096x512.Idx) (k : dot_S1x4096x3_S1x512x3_S1x4096x512_2_2_1_1_0_0.contr.Idx) :
    (dot_S1x4096x3_S1x512x3_S1x4096x512_2_2_1_1_0_0.rhsIdx i k 1).val = (i 2).val := by
  unfold DotDims.rhsIdx
  rw [dif_neg (show ¬(1 : Fin S1x512x3.rank) ∈ dot_S1x4096x3_S1x512x3_S1x4096x512_2_2_1_1_0_0.rhsBatch by decide),
    dif_pos (show (1 : Fin S1x512x3.rank) ∈ dot_S1x4096x3_S1x512x3_S1x4096x512_2_2_1_1_0_0.rhsNonContracting by decide)]
  rfl
theorem rhs_cross_2 (i : S1x4096x512.Idx) (k : dot_S1x4096x3_S1x512x3_S1x4096x512_2_2_1_1_0_0.contr.Idx) :
    (dot_S1x4096x3_S1x512x3_S1x4096x512_2_2_1_1_0_0.rhsIdx i k 2).val = (k ⟨0, by decide⟩).val :=
  dot_S1x4096x3_S1x512x3_S1x4096x512_2_2_1_1_0_0.rhsIdx_val_of_single rfl i k

/-- The matrix product of the block and the tile, into zero: entry (n, q) is the inner product of point `n` and point `q`. -/
theorem cross_at (v : FVec Ideal S1x4096x3 .f32) (w : FVec Ideal S1x512x3 .f32) (hb : FTy.bits .bf16 < FTy.bits .f32)
    (n : Fin 4096) (q : Fin 512) :
    matmul dot_S1x4096x3_S1x512x3_S1x4096x512_2_2_1_1_0_0 none (truncf .bf16 v hb) (truncf .bf16 w hb) (constant S1x4096x512 .f32 0x00000000#32) (ix3 (0 : Fin 1) n q)
      = ∑ d : Fin 3, v (ix3 0 n d) * w (ix3 0 q d) := by
  refine (Ideal.matmul_constant_zero_apply dot_S1x4096x3_S1x512x3_S1x4096x512_2_2_1_1_0_0 none (truncf .bf16 v hb) (truncf .bf16 w hb) (ix3 (0 : Fin 1) n q)).trans ?_
  rw [← Equiv.sum_comp (contrEquiv1 dot_S1x4096x3_S1x512x3_S1x4096x512_2_2_1_1_0_0 3 rfl rfl).symm]
  refine Finset.sum_congr rfl fun k _ => ?_
  have hk := contrEquiv1_symm_val dot_S1x4096x3_S1x512x3_S1x4096x512_2_2_1_1_0_0 3 rfl rfl k
  have el : dot_S1x4096x3_S1x512x3_S1x4096x512_2_2_1_1_0_0.lhsIdx (ix3 (0 : Fin 1) n q) ((contrEquiv1 dot_S1x4096x3_S1x512x3_S1x4096x512_2_2_1_1_0_0 3 rfl rfl).symm k) = ix3 0 n k :=
    funext fun a => Fin.ext (by
      match a with
      | ⟨0, _⟩ => exact lhs_cross_0 _ _
      | ⟨1, _⟩ => exact lhs_cross_1 _ _
      | ⟨2, _⟩ => exact (lhs_cross_2 _ _).trans hk)
  have er : dot_S1x4096x3_S1x512x3_S1x4096x512_2_2_1_1_0_0.rhsIdx (ix3 (0 : Fin 1) n q) ((contrEquiv1 dot_S1x4096x3_S1x512x3_S1x4096x512_2_2_1_1_0_0 3 rfl rfl).symm k) = ix3 0 q k :=
    funext fun a => Fin.ext (by
      match a with
      | ⟨0, _⟩ => exact rhs_cross_0 _ _
      | ⟨1, _⟩ => exact rhs_cross_1 _ _
      | ⟨2, _⟩ => exact (rhs_cross_2 _ _).trans hk)
  rw [el, er]
  rfl

/-! ## The tile of distances and its two minima -/

/-- Entry (n, q) of the tile of distances. -/
theorem tile_at (x0 : Vec Ideal S1x4096x3 .f32) (x1 : Vec Ideal S1x512x3 .f32) (n : Fin 4096) (q : Fin 512) :
    k0_pay1 (F := Ideal) x0 x1 (ix3 (0 : Fin 1) n q) = sqd (fun d => x0 (ix3 0 n d)) (fun d => x1 (ix3 0 q d)) := by
  unfold k0_pay1 sqd
  exact congrArg₂ (fun a b : EReal => a - two * b)
    (congrArg₂ (fun a b : EReal => a + b) (rowNorm_at x0 _ _ _ _ _ n q) (colNorm_at x1 _ _ _ _ _ _ n q))
    (cross_at x0 x1 _ n q)

/-- The row block after the body: what it held, met with the infimum of row `n` of the tile. -/
theorem rowsTile_at (x0 : Vec Ideal S1x4096x3 .f32) (x1 : Vec Ideal S1x512x3 .f32) (v : Vec Ideal S1x4096x1 .f32) (n : Fin 4096) :
    k0_pay3 (F := Ideal) x0 x1 v (ix3 (0 : Fin 1) n (0 : Fin 1))
      = min (v (ix3 0 n 0)) (⨅ q : Fin 512, sqd (fun d => x0 (ix3 0 n d)) (fun d => x1 (ix3 0 q d))) := by
  unfold k0_pay3
  refine congrArg₂ (fun a b : EReal => min a b) (congrFun (shapeCast_self v _) _) ?_
  refine (shapeCast_apply _ _ (ix3 (0 : Fin 1) n (0 : Fin 1)) (ix2 (0 : Fin 1) n) (by
    rw [Shape.rowMajor_val_two, Shape.rowMajor_val_three]
    show (0 : ℕ) * 4096 + n.val = ((0 : ℕ) * 4096 + n.val) * 1 + 0
    omega)).trans ?_
  refine (minimum_single _ _ _ _ _ _).trans ?_
  show Finset.fold min (Ideal.ofBits .f32 0x7F800000#32) _ _ = _
  rw [ofBits_inf, fold_min_top]
  refine iInf_congr fun q => ?_
  show k0_pay1 (F := Ideal) x0 x1 (Shape.Reduces.lift _ (ix2 (0 : Fin 1) n) q) = _
  rw [show Shape.Reduces.lift (s := S1x4096x512) (a := 2) (t := S1x4096) _ (ix2 (0 : Fin 1) n) q = ix3 (0 : Fin 1) n q from
    funext fun a => Fin.ext (by match a with | ⟨0, _⟩ => rfl | ⟨1, _⟩ => rfl | ⟨2, _⟩ => rfl)]
  exact tile_at x0 x1 n q

/-- The column block after the body: the infimum of column `q` of the tile. -/
theorem colsTile_at (x0 : Vec Ideal S1x4096x3 .f32) (x1 : Vec Ideal S1x512x3 .f32) (q : Fin 512) :
    k0_pay4 (F := Ideal) x0 x1 (ix3 (0 : Fin 1) (0 : Fin 1) q)
      = ⨅ n : Fin 4096, sqd (fun d => x0 (ix3 0 n d)) (fun d => x1 (ix3 0 q d)) := by
  unfold k0_pay4
  refine (shapeCast_apply _ _ (ix3 (0 : Fin 1) (0 : Fin 1) q) (ix2 (0 : Fin 1) q) (by
    rw [Shape.rowMajor_val_two, Shape.rowMajor_val_three]
    show (0 : ℕ) * 512 + q.val = ((0 : ℕ) * 1 + 0) * 512 + q.val
    omega)).trans ?_
  refine (minimum_single _ _ _ _ _ _).trans ?_
  show Finset.fold min (Ideal.ofBits .f32 0x7F800000#32) _ _ = _
  rw [ofBits_inf, fold_min_top]
  refine iInf_congr fun n => ?_
  show k0_pay1 (F := Ideal) x0 x1 (Shape.Reduces.lift _ (ix2 (0 : Fin 1) q) n) = _
  rw [show Shape.Reduces.lift (s := S1x4096x512) (a := 1) (t := S1x512) _ (ix2 (0 : Fin 1) q) n = ix3 (0 : Fin 1) n q from
    funext fun a => Fin.ext (by match a with | ⟨0, _⟩ => rfl | ⟨1, _⟩ => rfl | ⟨2, _⟩ => rfl)]
  exact tile_at x0 x1 n q

/-- The reset value is +∞ everywhere. -/
theorem reset_at (i : S1x4096x1.Idx) : k0_pay2 (F := Ideal) i = (⊤ : EReal) := ofBits_inf

end Cert.KernelIdeal.KValue

end
-- ==== Proof.KBlocks.lean ====
/-
  What the two output blocks hold after every grid point, in terms of the two clouds as the region finds them.

  The grid has 16 × 8 points; point `t` works on batch entry `t / 8` and on tile `t % 8` of the second cloud (its
  points `512·(t % 8) … 512·(t % 8) + 511`), with the whole first cloud of that batch entry resident. So entry (r, q)
  of the body's tile of distances is the distance between point `r` of the first cloud and point `512·(t % 8) + q` of
  the second (`tile_entry`).
    * The column block after point `t` holds, at `q`, the infimum over all `r` of those distances: the column
      minimum of point `512·(t % 8) + q`, complete in one step (`cols_val`).
    * The row block is carried along the eight tiles of a batch entry: after tile `j` it holds, at `r`, the infimum
      of the distances to the second cloud's points below `512·(j + 1)` — by induction on the point, the first tile
      starting from +∞ (`rows_inv`).
-/
import proofs.«169271_j50646254354947_1_alg».proof.Proof.Gen.KernelIdeal.Frame
import proofs.«169271_j50646254354947_1_alg».proof.Proof.KPieces
import proofs.«169271_j50646254354947_1_alg».proof.Proof.KDist

noncomputable section

open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx Cert.Chamfer

variable (m : (ℓ : Loc nD τ sig) → Buf (Elt Ideal) ℓ)

/-- The first cloud's block at point `t`, and the second cloud's tile, at their literal types. -/
abbrev blk1 (c : Dev nD) (t : Fin cfg0.N) : Vec Ideal S1x4096x3 .f32 := iblk m c 0 t
abbrev blk2 (c : Dev nD) (t : Fin cfg0.N) : Vec Ideal S1x512x3 .f32 := iblk m c 1 t

/-- The two clouds as the region finds them. -/
abbrev cloud1 (c : Dev nD) : Cloud.Idx → EReal := V m c main_arg0
abbrev cloud2 (c : Dev nD) : Cloud.Idx → EReal := V m c main_arg1

/-- Where each window's block sits at point `t`: batch entry `t / 8`, and for the second cloud and the column
    minima tile `t % 8` — decided over the 128 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8 :=
  (by decide +kernel : ∀ t : Fin grid0.N, _)

/-- The first cloud's block at point `t` reads batch entry `t / 8` of the cloud. -/
theorem block1_at (c : Dev nD) (t : Fin cfg0.N) (b : Fin 16) (hb : b.val = t.val / 8) (r : Fin 4096) (d : Fin 3) :
    blk1 m c t (ix3 (0 : Fin 1) r d) = cloud1 m c (ix3 b r d) := by
  obtain ⟨e0, e1, e2, -⟩ := idx_facts t
  unfold blk1 iblk
  rw [View.read_apply]
  show V m c main_arg0 _ = V m c main_arg0 _
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 4096 + 1 * r.val = r.val; rw [e1]; omega
  | ⟨2, _⟩ => show win0_0.index t (2 : Fin 3) * 3 + 1 * d.val = d.val; rw [e2]; omega

/-- The second cloud's tile at point `t` reads points `512·(t % 8) + q` of batch entry `t / 8`. -/
theorem block2_at (c : Dev nD) (t : Fin cfg0.N) (b : Fin 16) (hb : b.val = t.val / 8) (q : Fin 512) (mm : Fin 4096)
    (hm : mm.val = 512 * (t.val % 8) + q.val) (d : Fin 3) :
    blk2 m c t (ix3 (0 : Fin 1) q d) = cloud2 m c (ix3 b mm d) := by
  obtain ⟨-, -, -, e0, e1, e2, -⟩ := idx_facts t
  unfold blk2 iblk
  rw [View.read_apply]
  show V m c main_arg1 _ = V m c main_arg1 _
  congr 1
  funext a
  apply Fin.ext
  match a with
  | ⟨0, _⟩ => show win0_1.index t (0 : Fin 3) * 1 + 1 * (0 : Fin 1).val = b.val; rw [e0, hb]; simp
  | ⟨1, _⟩ => show win0_1.index t (1 : Fin 3) * 512 + 1 * q.val = mm.val; rw [e1, hm]; omega
  | ⟨2, _⟩ => show win0_1.index t (2 : Fin 3) * 3 + 1 * d.val = d.val; rw [e2]; omega

/-- Entry (r, q) of the tile of distances at point `t` is the distance from point `r` of the first cloud to point
    `512·(t % 8) + q` of the second, in batch entry `t / 8`. -/
theorem tile_entry (c : Dev nD) (t : Fin cfg0.N) (b : Fin 16) (hb : b.val = t.val / 8) (r : Fin 4096) (q : Fin 512)
    (mm : Fin 4096) (hm : mm.val = 512 * (t.val % 8) + q.val) :
    sqd (fun d => blk1 m c t (ix3 (0 : Fin 1) r d)) (fun d => blk2 m c t (ix3 (0 : Fin 1) q d))
      = Chamfer.dist (cloud1 m c) (cloud2 m c) b r mm := by
  unfold Chamfer.dist
  exact congrArg₂ sqd (funext fun d => block1_at m c t b hb r d) (funext fun d => block2_at m c t b hb q mm hm d)

/-! ## The blocks after a point, as the body's values -/

theorem rows_at_first (c : Dev nD) (t : Fin cfg0.N) (h0 : t.val % 8 = 0) :
    (outsAt0 m c t.val t.isLt).1 = k0_pay3 (F := Ideal) (blk1 m c t) (blk2 m c t) (k0_pay2 (F := Ideal)) := by
  rw [outsAt0_A m c t h0]
  dsimp only
  exact rows_first (F := Ideal) c (grid0.coords t) (ms0_0 t) (hs0_0 t) (ms0_1 t) (hs0_1 t) (ms0_2 t) (hs0_2 t) (ms0_3 t) (hs0_3 t)
    ((hcond0_0 t).mpr h0) (iblk m c 0 t) (iblk m c 1 t)

theorem rows_at_later (c : Dev nD) (t : Fin cfg0.N) (h0 : ¬t.val % 8 = 0) :
    (outsAt0 m c t.val t.isLt).1
      = k0_pay3 (F := Ideal) (blk1 m c t) (blk2 m c t) (outsAt0 m c (t.val - 1) (Nat.lt_of_le_of_lt (Nat.sub_le _ _) t.isLt)).1 := by
  rw [outsAt0_B m c t h0]
  dsimp only
  exact rows_later (F := Ideal) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t)
    (outsAt0 m c (t.val - 1) (Nat.lt_of_le_of_lt (Nat.sub_le _ _) t.isLt)).1

theorem cols_at (c : Dev nD) (t : Fin cfg0.N) :
    (outsAt0 m c t.val t.isLt).2 = k0_pay4 (F := Ideal) (blk1 m c t) (blk2 m c t) := by
  by_cases h0 : t.val % 8 = 0
  · rw [outsAt0_A m c t h0]
    dsimp only
    exact cols_first (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t)
  · rw [outsAt0_B m c t h0]
    dsimp only
    exact cols_later (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t)
      (outsAt0 m c (t.val - 1) (Nat.lt_of_le_of_lt (Nat.sub_le _ _) t.isLt)).1

/-! ## The column minima: complete after every point -/

theorem cols_val (c : Dev nD) (t : Fin cfg0.N) (b : Fin 16) (hb : b.val = t.val / 8) (q : Fin 512) (mm : Fin 4096)
    (hm : mm.val = 512 * (t.val % 8) + q.val) :
    (outsAt0 m c t.val t.isLt).2 (ix3 (0 : Fin 1) (0 : Fin 1) q) = ⨅ r : Fin 4096, Chamfer.dist (cloud1 m c) (cloud2 m c) b r mm := by
  rw [cols_at m c t]
  refine (colsTile_at (blk1 m c t) (blk2 m c t) q).trans ?_
  exact iInf_congr fun r => tile_entry m c t b hb r q mm hm

/-! ## The row minima: carried along a batch entry's eight tiles -/

/-- At the first tile: from +∞, the infimum over the first 512 points. -/
theorem rows_first_val (c : Dev nD) (t : Fin cfg0.N) (h0 : t.val % 8 = 0) (b : Fin 16) (hb : b.val = t.val / 8) (r : Fin 4096) :
    (outsAt0 m c t.val t.isLt).1 (ix3 (0 : Fin 1) r (0 : Fin 1))
      = partialMin (Chamfer.dist (cloud1 m c) (cloud2 m c) b r) (512 * (t.val % 8 + 1)) := by
  rw [rows_at_first m c t h0]
  refine (rowsTile_at (blk1 m c t) (blk2 m c t) _ r).trans ?_
  rw [reset_at, h0]
  exact partialMin_first _ _ fun q => tile_entry m c t b hb r q _ (by rw [h0])

/-- At a later tile: what the tile before left, extended by this tile's 512 points. -/
theorem rows_later_val (c : Dev nD) (t : Fin cfg0.N) (h0 : ¬t.val % 8 = 0) (b : Fin 16) (hb : b.val = t.val / 8) (r : Fin 4096)
    (ih : (outsAt0 m c (t.val - 1) (Nat.lt_of_le_of_lt (Nat.sub_le _ _) t.isLt)).1 (ix3 (0 : Fin 1) r (0 : Fin 1))
      = partialMin (Chamfer.dist (cloud1 m c) (cloud2 m c) b r) (512 * ((t.val - 1) % 8 + 1))) :
    (outsAt0 m c t.val t.isLt).1 (ix3 (0 : Fin 1) r (0 : Fin 1))
      = partialMin (Chamfer.dist (cloud1 m c) (cloud2 m c) b r) (512 * (t.val % 8 + 1)) := by
  rw [rows_at_later m c t h0]
  refine (rowsTile_at (blk1 m c t) (blk2 m c t) _ r).trans ?_
  rw [ih, show (t.val - 1) % 8 + 1 = t.val % 8 from by omega]
  exact partialMin_step _ (t.val % 8) (by omega) _ fun q => tile_entry m c t b hb r q _ rfl

/-- After point `n` the row block holds, at `r`, the infimum of the distances from point `r` to the second cloud's
    points below `512·(n % 8 + 1)`, in batch entry `n / 8`. -/
theorem rows_inv (c : Dev nD) : ∀ (n : ℕ) (hn : n < cfg0.N) (b : Fin 16), b.val = n / 8 → ∀ r : Fin 4096,
    (outsAt0 m c n hn).1 (ix3 (0 : Fin 1) r (0 : Fin 1))
      = partialMin (Chamfer.dist (cloud1 m c) (cloud2 m c) b r) (512 * (n % 8 + 1))
  | 0, hn, b, hb, r => rows_first_val m c ⟨0, hn⟩ rfl b hb r
  | n + 1, hn, b, hb, r => by
    by_cases h0 : (n + 1) % 8 = 0
    · exact rows_first_val m c ⟨n + 1, hn⟩ h0 b hb r
    · exact rows_later_val m c ⟨n + 1, hn⟩ h0 b hb r
        (rows_inv c n (Nat.lt_of_succ_lt hn) b (by omega) r)

end Cert.KernelIdeal.KValue

end
-- ==== Proof.KFinal.lean ====
/-
  The kernel's run, read: the two arrays the region leaves, and the result the host lines after it compute from them.

  The row block of batch entry `b` is written back once, after the eighth tile, when it holds the infimum over all 4096
  points of the second cloud: so the array of row minima ends at  (b, r, 0) ↦ inf over m of dist b r m. The column block
  is written back after every point, each point its own 512 columns: so the array of column minima ends at
  (b, 0, m) ↦ inf over r of dist b r m. Every index of either array lies in exactly such a block. The host lines then
  drop the unit axis of each array, and take the two means and their sum.
-/
import proofs.«169271_j50646254354947_1_alg».proof.Proof.KBlocks
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx Cert.Chamfer

variable (m : (ℓ : Loc nD τ sig) → Buf (Elt Ideal) ℓ) (ρ : Dev nD → PrngReg)

/-- The array of row minima as the region leaves it, with its unit last axis. -/
def rowArr (c : Dev nD) : Buf (Elt Ideal) ((c : Thread nD τ).loc main_v0_0) :=
  fun (i : S16x4096x1.Idx) => (⨅ mm : Fin 4096, Chamfer.dist (cloud1 m c) (cloud2 m c) (i 0) (i 1) mm : EReal)

/-- The array of column minima as the region leaves it, with its unit middle axis. -/
def colArr (c : Dev nD) : Buf (Elt Ideal) ((c : Thread nD τ).loc main_v0_1) :=
  fun (i : S16x1x4096.Idx) => (⨅ r : Fin 4096, Chamfer.dist (cloud1 m c) (cloud2 m c) (i 0) r (i 2) : EReal)

/-- `rows_inv` at any index of the row block (its first and last coordinates are 0). -/
theorem rows_inv_idx (c : Dev nD) (n : ℕ) (hn : n < cfg0.N) (b : Fin 16) (hb : b.val = n / 8) (y : S1x4096x1.Idx) :
    (outsAt0 m c n hn).1 y = partialMin (Chamfer.dist (cloud1 m c) (cloud2 m c) b (y 1)) (512 * (n % 8 + 1)) := by
  obtain ⟨a, r, z, rfl⟩ : ∃ (a : Fin 1) (r : Fin 4096) (z : Fin 1), y = ix3 a r z := ⟨y 0, y 1, y 2, eq_ix3 y⟩
  obtain rfl : a = 0 := Subsingleton.elim _ _
  obtain rfl : z = 0 := Subsingleton.elim _ _
  exact rows_inv m c n hn b hb r

/-- `cols_val` at any index of the column block. -/
theorem cols_val_idx (c : Dev nD) (t : Fin cfg0.N) (b : Fin 16) (hb : b.val = t.val / 8) (y : S1x1x512.Idx) (mm : Fin 4096)
    (hm : mm.val = 512 * (t.val % 8) + (y 2).val) :
    (outsAt0 m c t.val t.isLt).2 y = ⨅ r : Fin 4096, Chamfer.dist (cloud1 m c) (cloud2 m c) b r mm := by
  obtain ⟨a, z, q, rfl⟩ : ∃ (a : Fin 1) (z : Fin 1) (q : Fin 512), y = ix3 a z q := ⟨y 0, y 1, y 2, eq_ix3 y⟩
  obtain rfl : a = 0 := Subsingleton.elim _ _
  obtain rfl : z = 0 := Subsingleton.elim _ _
  exact cols_val m c t b hb q mm hm

/-! ## The array of row minima -/

/-- The one write-back of a batch entry's row block, after its eighth tile, writes the entry's rows of `rowArr`. -/
theorem flushed_rows (c : Dev nD) (t : Fin cfg0.N) (hf : (cfg0.win 2).flush t = true) :
    (dats m 0 c).flushed 2 t = ((cfg0.win 2).blk t).view.read (Elt Ideal) (rowArr m c) := by
  have h7 : t.val % 8 = 7 := (flush0_2 t).mp hf
  obtain ⟨-, -, -, -, -, -, e0, e1, e2, -⟩ := idx_facts t
  show (cfg0.win 2).cut (grid0.coords t) ((dats m 0 c).after 2 t) = _
  rw [after0_2]
  funext y
  show (outsAt0 m c t.val t.isLt).1 y = rowArr m c (((cfg0.win 2).blk t).view.emb y)
  have hy0 : (y 0).val < 1 := (y 0).isLt
  have eb : ((((cfg0.win 2).blk t).view.emb y) 0).val = t.val / 8 := by
    show win0_2.index t (0 : Fin 3) * 1 + 1 * (y 0).val = _
    omega
  have er : (((cfg0.win 2).blk t).view.emb y) 1 = y 1 := Fin.ext (by
    show win0_2.index t (1 : Fin 3) * 4096 + 1 * (y 1).val = (y 1).val
    omega)
  refine (rows_inv_idx m c t.val t.isLt ((((cfg0.win 2).blk t).view.emb y) 0) eb y).trans ?_
  rw [h7, show 512 * (7 + 1) = 4096 from rfl, partialMin_full]
  unfold rowArr
  show _ = ⨅ mm : Fin 4096, Chamfer.dist (cloud1 m c) (cloud2 m c) ((((cfg0.win 2).blk t).view.emb y) 0) ((((cfg0.win 2).blk t).view.emb y) 1) mm
  rw [er]

/-- Every index of the array of row minima lies in the block written back after the eighth tile of its batch entry. -/
theorem cover_rows (i : S16x4096x1.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1 := (i 2).isLt
  have hN : cfg0.N = 128 := N_0
  obtain ⟨t, tv⟩ : ∃ t : Fin cfg0.N, t.val = 8 * (i 0).val + 7 := ⟨⟨8 * (i 0).val + 7, by rw [hN]; omega⟩, rfl⟩
  obtain ⟨-, -, -, -, -, -, e0, e1, e2, -⟩ := idx_facts t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 4096 ≤ (i 1).val ∧ (i 1).val < win0_2.index t (1 : Fin 3) * 4096 + 4096
    omega
  | ⟨2, _⟩ =>
    show win0_2.index t (2 : Fin 3) * 1 ≤ (i 2).val ∧ (i 2).val < win0_2.index t (2 : Fin 3) * 1 + 1
    omega

/-- So the array of row minima ends at `rowArr`. -/
theorem final_rows (c : Dev nD) : (dats m 0 c).arrAt 2 cfg0.N = rowArr m c :=
  (dats m 0 c).arrAt_eq_of_cover 2 (rowArr m c) (flushed_rows m c) cover_rows

/-! ## The array of column minima -/

/-- Every point writes back its own 512 columns of `colArr`. -/
theorem flushed_cols (c : Dev nD) (t : Fin cfg0.N) (hf : (cfg0.win 3).flush t = true) :
    (dats m 0 c).flushed 3 t = ((cfg0.win 3).blk t).view.read (Elt Ideal) (colArr m c) := by
  obtain ⟨-, -, -, -, -, -, -, -, -, e0, e1, e2⟩ := idx_facts t
  show (cfg0.win 3).cut (grid0.coords t) ((dats m 0 c).after 3 t) = _
  rw [after0_3]
  funext y
  show (outsAt0 m c t.val t.isLt).2 y = colArr m c (((cfg0.win 3).blk t).view.emb y)
  have hy0 : (y 0).val < 1 := (y 0).isLt
  have eb : ((((cfg0.win 3).blk t).view.emb y) 0).val = t.val / 8 := by
    show win0_3.index t (0 : Fin 3) * 1 + 1 * (y 0).val = _
    omega
  have em : ((((cfg0.win 3).blk t).view.emb y) 2).val = 512 * (t.val % 8) + (y 2).val := by
    show win0_3.index t (2 : Fin 3) * 512 + 1 * (y 2).val = _
    omega
  exact cols_val_idx m c t ((((cfg0.win 3).blk t).view.emb y) 0) eb y ((((cfg0.win 3).blk t).view.emb y) 2) em

/-- Every index of the array of column minima lies in the block of its batch entry and its tile. -/
theorem cover_cols (i : S16x1x4096.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 4096 := (i 2).isLt
  have hN : cfg0.N = 128 := N_0
  obtain ⟨t, tv⟩ : ∃ t : Fin cfg0.N, t.val = 8 * (i 0).val + (i 2).val / 512 :=
    ⟨⟨8 * (i 0).val + (i 2).val / 512, by rw [hN]; omega⟩, rfl⟩
  obtain ⟨-, -, -, -, -, -, -, -, -, e0, e1, e2⟩ := idx_facts t
  refine ⟨t, flush0_3 t, ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 512 ≤ (i 2).val ∧ (i 2).val < win0_3.index t (2 : Fin 3) * 512 + 512
    omega

/-- So the array of column minima ends at `colArr`. -/
theorem final_cols (c : Dev nD) : (dats m 0 c).arrAt 3 cfg0.N = colArr m c :=
  (dats m 0 c).arrAt_eq_of_cover 3 (colArr m c) (flushed_cols m c) cover_cols

/-! ## The host lines after the region -/

/-- Dropping the unit last axis of the row array gives the row minima … -/
theorem rows_flat (c : Dev nD) (h : S16x4096x1.ShapeCasts S16x4096) :
    shapeCast S16x4096 (rowArr m c) h = rowMin (cloud1 m c) (cloud2 m c) := by
  funext i
  obtain ⟨b, r, rfl⟩ : ∃ (b : Fin 16) (r : Fin 4096), i = ix2 b r := ⟨i 0, i 1, eq_ix2 i⟩
  refine (shapeCast_apply _ h (ix2 b r) (ix3 b r (0 : Fin 1)) (by
    rw [Shape.rowMajor_val_two, Shape.rowMajor_val_three]
    show (b.val * 4096 + r.val) * 1 + 0 = b.val * 4096 + r.val
    omega)).trans ?_
  rfl

/-- … and dropping the unit middle axis of the column array the column minima. -/
theorem cols_flat (c : Dev nD) (h : S16x1x4096.ShapeCasts S16x4096) :
    shapeCast S16x4096 (colArr m c) h = colMin (cloud1 m c) (cloud2 m c) := by
  funext i
  obtain ⟨b, q, rfl⟩ : ∃ (b : Fin 16) (q : Fin 4096), i = ix2 b q := ⟨i 0, i 1, eq_ix2 i⟩
  refine (shapeCast_apply _ h (ix2 b q) (ix3 b (0 : Fin 1) q) (by
    rw [Shape.rowMajor_val_two, Shape.rowMajor_val_three]
    show (b.val * 1 + 0) * 4096 + q.val = b.val * 4096 + q.val
    omega)).trans ?_
  rfl

/-- The result of the lines after the region: the mean of the row minima plus the mean of the column minima. -/
theorem tail_eq (c : Dev nD) :
    Pipeline.afterTail₀ cfgs (dats m) 0 (V0 m) [hostOps1] c main_v9
      = meanSum Facts₀.reducesTo_S16x4096_S16_d1 Facts₀.h_S_ Facts₀.bcast_S_S16
          (rowMin (cloud1 m c) (cloud2 m c)) (colMin (cloud1 m c) (cloud2 m c)) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.devRef .tc main_v0_0)
      = rowArr m c :=
    (Pipeline.withArrays_arr spec0 launch0.win.arr_inj c _ _ 2).trans (final_rows m c)
  have e3 : Pipeline.withArrays (cfgs 0).spec c (V0 m c) (fun w => (dats m 0 c).arrAt w (cfgs 0).N) (Proc.devRef .tc main_v0_1)
      = colArr m c :=
    (Pipeline.withArrays_arr spec0 launch0.win.arr_inj c _ _ 3).trans (final_cols m c)
  rw [e2, e3]
  show meanSum _ _ _ (shapeCast S16x4096 (rowArr m c) Facts₀.shapeCasts_S16x4096x1_S16x4096)
    (shapeCast S16x4096 (colArr m c) Facts₀.shapeCasts_S16x1x4096_S16x4096) = _
  rw [rows_flat, cols_flat]

/-! ## The run -/

/-- Every weakly fair execution of the idealized kernel's @main terminates with the result at the mean of the row
    minima plus the mean of the column minima of the two clouds, and the two clouds unchanged. -/
theorem run : θ_run defs (onTc (τ := τ) (main (F := Ideal))) ⟨m, fun _ => 0, ρ⟩ fun r => ∀ c : Dev nD,
      r.2.mem ((c.tc : Thread nD τ).loc main_v9)
        = meanSum Facts₀.reducesTo_S16x4096_S16_d1 Facts₀.h_S_ Facts₀.bcast_S_S16
            (rowMin (m ((c.tc : Thread nD τ).loc main_arg0)) (m ((c.tc : Thread nD τ).loc main_arg1)))
            (colMin (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The Chamfer distance of two clouds of 4096 points in ℝ³, sixteen times over: the mean over the first cloud's points
  of the squared distance to the nearest point of the second, plus the same mean the other way round, the squared
  distance taken in its expanded form  |u|² + |v|² − 2·⟨u, v⟩.

  The reference forms all 4096 × 4096 distances of a batch entry at once and takes the minimum along each axis. The
  kernel keeps the first cloud of a batch entry resident and walks the second in eight tiles of 512 points: each tile's
  column minima are complete at once, and the row minima are carried from tile to tile, starting from +∞. Over the
  extended reals a minimum from +∞ over an axis is the infimum over that axis, and the infimum over 4096 indices is the
  infimum of the eight infima over 512: so both programs leave the same two arrays of minima (`Chamfer.rowMin`,
  `Chamfer.colMin`), to which both apply the same closing lines (`Chamfer.meanSum`). The distance itself is the same
  expression on both sides — the two squared norms as sums over the three coordinates, the cross term a contraction
  over them — so no law of the extended reals that needs finiteness is used, and the precondition is never opened.

  The three frames are the generated ones (the reference's is its generated run with the result dropped); the
  idealization rewrote nothing, so `preserves` is trivial.
-/
import proofs.«169271_j50646254354947_1_alg».proof.Defs
import proofs.«169271_j50646254354947_1_alg».proof.Proof.Gen.Kernel
import proofs.«169271_j50646254354947_1_alg».proof.Proof.Gen.Kernel.Skeleton
import proofs.«169271_j50646254354947_1_alg».proof.Proof.Gen.Kernel.Launch
import proofs.«169271_j50646254354947_1_alg».proof.Proof.Gen.Kernel.Points
import proofs.«169271_j50646254354947_1_alg».proof.Proof.Gen.Kernel.Frame
import proofs.«169271_j50646254354947_1_alg».proof.Proof.Gen.KernelIdeal
import proofs.«169271_j50646254354947_1_alg».proof.Proof.Gen.KernelIdeal.Skeleton
import proofs.«169271_j50646254354947_1_alg».proof.Proof.Gen.KernelIdeal.Launch
import proofs.«169271_j50646254354947_1_alg».proof.Proof.Gen.KernelIdeal.Points
import proofs.«169271_j50646254354947_1_alg».proof.Proof.Gen.KernelIdeal.Frame
import proofs.«169271_j50646254354947_1_alg».proof.Proof.Gen.ReferenceIdeal
import proofs.«169271_j50646254354947_1_alg».proof.Proof.Gen.ReferenceIdeal.Run
import proofs.«169271_j50646254354947_1_alg».proof.Proof.Gen.ReferenceIdeal.Read
import proofs.«169271_j50646254354947_1_alg».proof.Proof.Gen.Pre_finite_inputs
import proofs.«169271_j50646254354947_1_alg».proof.Proof.RefMins
import proofs.«169271_j50646254354947_1_alg».proof.Proof.KFinal
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From clouds that agree, the kernel's result and the reference's are both the mean of the row minima plus the mean
    of the column minima of those clouds. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
